-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S4x8x64x2048 : Shape := ⟨4, ![4, 8, 64, 2048]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  bcast_S_S4x8x64x2048 : S_.BroadcastsInDim S4x8x64x2048 (![] : Fin 0 → Fin S4x8x64x2048.rank)
  reducesTo_S4x8x64x2048_S_d0_1_2_3 : S4x8x64x2048.ReducesTo [0, 1, 2, 3] S_

variable [Facts]

def fn {F : FTy → Type} [FloatOps F] (main_arg0 : FVec F S4x8x2048x64 .f32) (main_arg1 : FVec F S4x8x64x2048 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S4x8x64x2048 .f32 := Host.absf main_arg1
  let main_cst_0 : FVec F S_ .f32 := constant S_ .f32 0x7F800000#32
  let main_v5 : FVec F S4x8x64x2048 .f32 := broadcastInDim S4x8x64x2048 ![] bcast_S_S4x8x64x2048 main_cst_0
  let main_v6 : IVec S4x8x64x2048 1 := cmpf .olt main_v4 main_v5
  let main_c_1 : IVec S_ 1 := constantI S_ 1 1#1
  let main_v7 : IVec S_ 1 := (fun x v => Host.reduce IntOp.andi x v reducesTo_S4x8x64x2048_S_d0_1_2_3 h_S_) main_v6 main_c_1
  let main_v8 : IVec S_ 1 := andi main_v3 main_v7
  main_v8
-- ==== Kernel.lean ====
abbrev S4x8x2048x64 : Shape := ⟨4, ![4, 8, 2048, 64]⟩
abbrev S4x8x64x2048 : Shape := ⟨4, ![4, 8, 64, 2048]⟩
abbrev S32x2048x64 : Shape := ⟨3, ![32, 2048, 64]⟩
abbrev S32x64x2048 : Shape := ⟨3, ![32, 64, 2048]⟩
abbrev S32x2048x2048 : Shape := ⟨3, ![32, 2048, 2048]⟩
abbrev S1x1024x64 : Shape := ⟨3, ![1, 1024, 64]⟩
abbrev S1x64x1024 : Shape := ⟨3, ![1, 64, 1024]⟩
abbrev S1x1024x1024 : Shape := ⟨3, ![1, 1024, 1024]⟩
abbrev S1024x64 : Shape := ⟨2, ![1024, 64]⟩
abbrev S64x1024 : Shape := ⟨2, ![64, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S4x8x2048x2048 : Shape := ⟨4, ![4, 8, 2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4x8x2048x64, .f32⟩
  | .hbm, ⟨1, _⟩ => ⟨S4x8x64x2048, .f32⟩
  | .hbm, ⟨2, _⟩ => ⟨S32x2048x64, .f32⟩
  | .hbm, ⟨3, _⟩ => ⟨S32x64x2048, .f32⟩
  | .hbm, ⟨4, _⟩ => ⟨S32x2048x2048, .f32⟩
  | .hbm, ⟨5, _⟩ => ⟨S4x8x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x64x1024, .f32⟩
  | .local _ .vmem, ⟨3, _⟩ => ⟨S1x64x1024, .f32⟩
  | .local _ .vmem, ⟨4, _⟩ => ⟨S1x1024x1024, .f32⟩
  | .local _ .vmem, ⟨5, _⟩ => ⟨S1x1024x1024, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![32, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  shapeCasts_S4x8x2048x64_S32x2048x64 : S4x8x2048x64.ShapeCasts S32x2048x64
  shapeCasts_S4x8x64x2048_S32x64x2048 : S4x8x64x2048.ShapeCasts S32x64x2048
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  reduces_S1024x64_S1024 : S1024x64.Reduces [1] S1024
  shapeCasts_S1024_S1024x1 : S1024.ShapeCasts S1024x1
  reduces_S64x1024_S1024 : S64x1024.Reduces [0] S1024
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S32x2048x2048_S4x8x2048x2048 : S32x2048x2048.ShapeCasts S4x8x2048x2048
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S32x64x2048.size a
  hwx0_1 : ∀ i : grid0.Coords, EltTy.bits .f32 = 32 ∨ (Rect.block (s := S32x64x2048) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S32x2048x2048.size a
  hwx0_2 : ∀ i : grid0.Coords, EltTy.bits .f32 = 32 ∨ (Rect.block (s := S32x2048x2048) S1x1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S4x8x64x2048 : Shape := ⟨4, ![4, 8, 64, 2048]⟩
abbrev S_ : Shape := ⟨0, ![]⟩
abbrev S4x8x2048 : Shape := ⟨3, ![4, 8, 2048]⟩
abbrev S4x8x2048x1 : Shape := ⟨4, ![4, 8, 2048, 1]⟩
abbrev S4x8x1x2048 : Shape := ⟨4, ![4, 8, 1, 2048]⟩
abbrev S4x8x2048x2048 : Shape := ⟨4, ![4, 8, 2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x8x64x2048, .f32⟩
  | .hbm, ⟨2, _⟩ => ⟨S4x8x2048x64, .f32⟩
  | .hbm, ⟨3, _⟩ => ⟨S_, .f32⟩
  | .hbm, ⟨4, _⟩ => ⟨S4x8x2048, .f32⟩
  | .hbm, ⟨5, _⟩ => ⟨S4x8x2048x1, .f32⟩
  | .hbm, ⟨6, _⟩ => ⟨S4x8x64x2048, .f32⟩
  | .hbm, ⟨7, _⟩ => ⟨S_, .f32⟩
  | .hbm, ⟨8, _⟩ => ⟨S4x8x2048, .f32⟩
  | .hbm, ⟨9, _⟩ => ⟨S4x8x1x2048, .f32⟩
  | .hbm, ⟨10, _⟩ => ⟨S4x8x2048x2048, .f32⟩
  | .hbm, ⟨11, _⟩ => ⟨S4x8x2048x2048, .f32⟩
  | .hbm, ⟨12, _⟩ => ⟨S4x8x2048x2048, .f32⟩
  | .hbm, ⟨13, _⟩ => ⟨S4x8x2048x2048, .f32⟩
  | .hbm, ⟨14, _⟩ => ⟨S_, .f32⟩
  | .hbm, ⟨15, _⟩ => ⟨S4x8x2048x2048, .f32⟩
  | .hbm, ⟨16, _⟩ => ⟨S4x8x2048x2048, .f32⟩
  | .hbm, ⟨17, _⟩ => ⟨S4x8x2048x2048, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S4x8x2048x64_S4x8x2048_d3 : S4x8x2048x64.ReducesTo [3] S4x8x2048
  h_S_ : 0 < S_.numel
  bcast_S4x8x2048_S4x8x2048x1_0_1_2 : S4x8x2048.BroadcastsInDim S4x8x2048x1 (![0, 1, 2] : Fin 3 → Fin S4x8x2048x1.rank)
  reducesTo_S4x8x64x2048_S4x8x2048_d2 : S4x8x64x2048.ReducesTo [2] S4x8x2048
  bcast_S4x8x2048_S4x8x1x2048_0_1_3 : S4x8x2048.BroadcastsInDim S4x8x1x2048 (![0, 1, 3] : Fin 3 → Fin S4x8x1x2048.rank)
  bcast_S4x8x2048x1_S4x8x2048x2048_0_1_2_3 : S4x8x2048x1.BroadcastsInDim S4x8x2048x2048 (![0, 1, 2, 3] : Fin 4 → Fin S4x8x2048x2048.rank)
  bcast_S4x8x1x2048_S4x8x2048x2048_0_1_2_3 : S4x8x1x2048.BroadcastsInDim S4x8x2048x2048 (![0, 1, 2, 3] : Fin 4 → Fin S4x8x2048x2048.rank)
  bcast_S_S4x8x2048x2048 : S_.BroadcastsInDim S4x8x2048x2048 (![] : Fin 0 → Fin S4x8x2048x2048.rank)
  dot_S4x8x2048x64_S4x8x64x2048_S4x8x2048x2048_3_2_2_3_01_01_wf : DotDims.WF S4x8x2048x64 S4x8x64x2048 S4x8x2048x2048 [3] [2] [2] [3] [0, 1] [0, 1]

variable [Facts₀]

def dot_S4x8x2048x64_S4x8x64x2048_S4x8x2048x2048_3_2_2_3_01_01 : DotDims S4x8x2048x64 S4x8x64x2048 S4x8x2048x2048 where
  lhsContracting := [3]
  rhsContracting := [2]
  lhsNonContracting := [2]
  rhsNonContracting := [3]
  lhsBatch := [0, 1]
  rhsBatch := [0, 1]
  wf := dot_S4x8x2048x64_S4x8x64x2048_S4x8x2048x2048_3_2_2_3_01_01_wf

class Facts : Prop extends Facts₀ where

variable [Facts]
-- ==== Proof.Spec.lean ====
/-
  The specification both programs meet. For a query row `a` and a key column `b`, two 64-vectors of
  extended reals, the score is the squared Euclidean distance written in its expanded form and grouped as
  both programs group it:

      (Σ_c a_c · a_c  +  Σ_c b_c · b_c)  −  2 · Σ_c a_c · b_c .

  The factor 2 is kept as the extended real its 32-bit word encodes: the same word stands on both sides,
  so its value is never needed. The two programs differ only in how they lay the arrays out — the kernel
  folds batch and head into one axis of extent 32 and works on 1024 × 1024 tiles — so the specification is
  stated three times, over the rank-4 arrays, over the folded rank-3 arrays, and over one tile's blocks,
  each as `sqd` of the row and the column the index names.
-/
import Idealize.ShloMosaic.PureOps.Ideal
import Idealize.ShloMosaic.Lib.ValueIdx

noncomputable section

open scoped BigOperators

namespace Cert.SqDist

open Idealize.ShloMosaic Idealize.ShloMosaic.ValueIdx

/-- The literal 2.0 as the extended real its word encodes. -/
abbrev two : EReal := Ideal.ofBits .f32 0x40000000#32

/-- ‖a‖² + ‖b‖² − 2⟨a, b⟩ over the extended reals, in the grouping of both programs. -/
def sqd (a b : Fin 64 → EReal) : EReal :=
  ((∑ c : Fin 64, a c * a c) + (∑ c : Fin 64, b c * b c)) - two * ∑ c : Fin 64, a c * b c

/-- Over the arrays as the caller passes them: entry (b, h, r, j) pairs row r of the query of batch b and
    head h with column j of the key of the same batch and head. -/
def sqd4 (q : (⟨4, ![4, 8, 2048, 64]⟩ : Shape).Idx → EReal) (k : (⟨4, ![4, 8, 64, 2048]⟩ : Shape).Idx → EReal) :
    (⟨4, ![4, 8, 2048, 2048]⟩ : Shape).Idx → EReal := fun i =>
  sqd (fun c => q (ix4 (i 0 : Fin 4) (i 1 : Fin 8) (i 2 : Fin 2048) c))
       (fun c => k (ix4 (i 0 : Fin 4) (i 1 : Fin 8) c (i 3 : Fin 2048)))

/-- Over the arrays with batch and head folded into one axis of extent 32. -/
def sqd3 (q : (⟨3, ![32, 2048, 64]⟩ : Shape).Idx → EReal) (k : (⟨3, ![32, 64, 2048]⟩ : Shape).Idx → EReal) :
    (⟨3, ![32, 2048, 2048]⟩ : Shape).Idx → EReal := fun i =>
  sqd (fun c => q (ix3 (i 0 : Fin 32) (i 1 : Fin 2048) c))
       (fun c => k (ix3 (i 0 : Fin 32) c (i 2 : Fin 2048)))

/-- Over one tile: a 1024-row block of the query and a 1024-column block of the key, each with its
    leading unit axis. -/
def sqdBlk (x : (⟨3, ![1, 1024, 64]⟩ : Shape).Idx → EReal) (y : (⟨3, ![1, 64, 1024]⟩ : Shape).Idx → EReal) :
    (⟨3, ![1, 1024, 1024]⟩ : Shape).Idx → EReal := fun i =>
  sqd (fun c => x (ix3 (0 : Fin 1) (i 1 : Fin 1024) c))
       (fun c => y (ix3 (0 : Fin 1) c (i 2 : Fin 1024)))

end Cert.SqDist

end
-- ==== Proof.Payload.lean ====
/-
  What the kernel's body stores, read at one index of its 1024 × 1024 tile. The body squares the query
  block and sums along its 64 columns (one number per row, kept as a column), squares the key block and
  sums along its 64 rows (one number per column, kept as a row), spreads both over the tile, and subtracts
  twice the matrix product of the two blocks. Over the extended reals the narrowing of the product's
  operands is the identity, the lane sums are plain finite sums, and the product into a zero accumulator is
  the sum over the contracted axis; so entry (p, q) of the tile is `sqd` of row p of the query block and
  column q of the key block.
-/
import proofs.«133439_j88923002896506_1_alg».proof.Proof.Gen.KernelIdeal.Skeleton
import proofs.«133439_j88923002896506_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Tile

open Idealize.ShloMosaic Idealize.ShloMosaic.ValueIdx Cert.KernelIdeal Cert.KernelIdeal.Gen Cert.SqDist

/-- Row sums of squares, kept as a column and spread over the tile: entry (p, q) is Σ_c v(p, c)². -/
theorem rowsq_apply (v : FVec Ideal S1024x64 .f32) (p q : Fin 1024) :
    broadcastTo S1024x1024 (shapeCast S1024x1 (multiReduction .add [1] S1024 (mulf v v) 0x00000000#32 reduces_S1024x64_S1024 (.inl rfl) rfl) shapeCasts_S1024_S1024x1) broadcasts_S1024x1_S1024x1024 (ix2 p q)
      = ∑ c : Fin 64, v (ix2 p c) * v (ix2 p c) := by
  refine (broadcastTo_apply _ _ (ix2 p q) (ix2 p (0 : Fin 1)) (fun a => by
    match a with
    | ⟨0, _⟩ => show p.val = if (1024 : Nat) = 1 then 0 else p.val; rw [if_neg (by decide)]
    | ⟨1, _⟩ => show 0 = if (1 : Nat) = 1 then 0 else q.val; rw [if_pos rfl])).trans ?_
  refine (shapeCast_apply _ _ (ix2 p (0 : Fin 1)) (ix1 p) (by
    rw [Shape.rowMajor_val_one, Shape.rowMajor_val_two]
    show p.val = p.val * 1 + 0
    omega)).trans ?_
  refine (Ideal.multiReduction_add_single (mulf v v) 0x00000000#32 reduces_S1024x64_S1024 (.inl rfl) rfl (ix1 p)).trans ?_
  refine Finset.sum_congr rfl fun c _ => ?_
  have e : reduces_S1024x64_S1024.lift (ix1 p) c = ix2 p c :=
    funext fun a => Fin.ext (by match a with | ⟨0, _⟩ => rfl | ⟨1, _⟩ => rfl)
  rw [e]
  rfl

/-- Column sums of squares, kept as a row and spread over the tile: entry (p, q) is Σ_c v(c, q)². -/
theorem colsq_apply (v : FVec Ideal S64x1024 .f32) (p q : Fin 1024) :
    broadcastTo S1024x1024 (shapeCast S1x1024 (multiReduction .add [0] S1024 (mulf v v) 0x00000000#32 reduces_S64x1024_S1024 (.inl rfl) rfl) shapeCasts_S1024_S1x1024) broadcasts_S1x1024_S1024x1024 (ix2 p q)
      = ∑ c : Fin 64, v (ix2 c q) * v (ix2 c q) := by
  refine (broadcastTo_apply _ _ (ix2 p q) (ix2 (0 : Fin 1) q) (fun a => by
    match a with
    | ⟨0, _⟩ => show 0 = if (1 : Nat) = 1 then 0 else p.val; rw [if_pos rfl]
    | ⟨1, _⟩ => show q.val = if (1024 : Nat) = 1 then 0 else q.val; rw [if_neg (by decide)])).trans ?_
  refine (shapeCast_a_1a_apply _ _ (0 : Fin 1) q).trans ?_
  refine (Ideal.multiReduction_add_single (mulf v v) 0x00000000#32 reduces_S64x1024_S1024 (.inl rfl) rfl (ix1 q)).trans ?_
  refine Finset.sum_congr rfl fun c _ => ?_
  have e : reduces_S64x1024_S1024.lift (ix1 q) c = ix2 c q :=
    funext fun a => Fin.ext (by match a with | ⟨0, _⟩ => rfl | ⟨1, _⟩ => rfl)
  rw [e]
  rfl

/-! The matrix product's operand indices, axis by axis: at output entry (p, q) and contraction coordinate k
    the left operand is read at (p, k) and the right at (k, q). -/

theorem lhs_mm_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_mm_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_mm_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_mm_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The product of the two narrowed blocks into a zero accumulator: entry (p, q) is Σ_c v(p, c) · w(c, q),
    the narrowing being the identity on extended reals. -/
theorem mm_apply (v : FVec Ideal S1024x64 .f32) (w : FVec Ideal S64x1024 .f32) (p q : Fin 1024) :
    matmul dot_S1024x64_S64x1024_S1024x1024_1_0_0_1_n_n none (truncf .bf16 v bitsLt_bf16_f32) (truncf .bf16 w bitsLt_bf16_f32) (constant S1024x1024 .f32 0x00000000#32) (ix2 p q)
      = ∑ c : Fin 64, v (ix2 p c) * w (ix2 c q) := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 p q) ((contrEquiv1 dot_S1024x64_S64x1024_S1024x1024_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S1024x64_S64x1024_S1024x1024_1_0_0_1_n_n.rhsIdx (ix2 p q) ((contrEquiv1 dot_S1024x64_S64x1024_S1024x1024_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]
  rfl

/-- The whole payload at tile entry (u, p, q): `sqd` of row p of the query block and column q of the key
    block. -/
theorem pay_apply (x0 : Vec Ideal S1x1024x64 .f32) (x1 : Vec Ideal S1x64x1024 .f32) (u : Fin 1) (p q : Fin 1024) :
    k0_pay1 (F := Ideal) x0 x1 (ix3 u p q)
      = sqd (fun c => x0 (ix3 (0 : Fin 1) p c)) (fun c => x1 (ix3 (0 : Fin 1) c q)) := by
  unfold k0_pay1
  refine (shapeCast_ab_1ab_apply _ _ u p q).trans ?_
  unfold sqd
  refine congrArg₂ (· - ·) (congrArg₂ (· + ·) ?_ ?_) (congrArg₂ (· * ·) rfl ?_)
  · refine (rowsq_apply _ p q).trans (Finset.sum_congr rfl fun c _ => ?_)
    rw [shapeCast_1ab_ab_apply]
  · refine (colsq_apply _ p q).trans (Finset.sum_congr rfl fun c _ => ?_)
    rw [shapeCast_1ab_ab_apply]
  · refine (mm_apply _ _ p q).trans (Finset.sum_congr rfl fun c _ => ?_)
    rw [shapeCast_1ab_ab_apply, shapeCast_1ab_ab_apply]

/-- So the payload IS the tile's specification. -/
theorem pay_eq (x0 : Vec Ideal S1x1024x64 .f32) (x1 : Vec Ideal S1x64x1024 .f32) :
    k0_pay1 (F := Ideal) x0 x1 = sqdBlk x0 x1 := by
  funext i
  obtain ⟨u, p, q, rfl⟩ : ∃ (u : Fin 1) (p q : Fin 1024), i = ix3 u p q := ⟨i 0, i 1, i 2, eq_ix3 i⟩
  exact pay_apply x0 x1 u p q

end Cert.KernelIdeal.Tile

end
-- ==== Proof.Blocks.lean ====
/-
  From tiles to the whole array. The grid has 32 · 2 · 2 points; at point (g, a, b) the kernel reads rows
  1024·a … 1024·a + 1023 of query slab g and columns 1024·b … 1024·b + 1023 of key slab g, and writes tile
  (a, b) of result slab g. Every tile is the restriction of ONE function of the two folded arrays — entry
  (g, r, j) is the squared distance between row r of query slab g and column j of key slab g — and the tiles
  cover the result array, so after the run the array IS that function. Around the region the program only
  re-lays arrays: it folds batch and head of both arguments into the slab axis before, and unfolds the slab
  axis of the result after; an entry (b, h, r, j) of the final result is entry (8·b + h, r, j) of the folded
  one, and slab 8·b + h of a folded argument is batch b, head h of the argument.
-/
import proofs.«133439_j88923002896506_1_alg».proof.Proof.Gen.KernelIdeal.Frame
import proofs.«133439_j88923002896506_1_alg».proof.Proof.Payload
import Idealize.ShloMosaic.Lib.StableHlo.Run

set_option maxRecDepth 16384

noncomputable section

open scoped BigOperators

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Tile Cert.SqDist

variable (m : (ℓ : Loc nD τ sig) → Buf (Elt Ideal) ℓ) (ρ : Dev nD → PrngReg)

theorem zeros3 : (![0, 0, 0] : Fin 3 → Nat) = fun _ => 0 := funext fun a => by fin_cases a <;> rfl

/-- The three index maps over the grid: the query's block follows the result's slab and row block and
    stays at column block 0; the key's follows the slab and column block and stays at row block 0. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = win0_2.index t (2 : Fin 3)
    ∧ win0_2.index t (0 : Fin 3) ≤ 31 ∧ win0_2.index t (1 : Fin 3) ≤ 1 ∧ win0_2.index t (2 : Fin 3) ≤ 1 :=
  (by decide +kernel : ∀ t : Fin grid0.N, _)

/-- Every (slab, row block, column block) is some grid point's. -/
theorem index_onto : ∀ (q0 : Fin 32) (q1 : Fin 2) (q2 : Fin 2), ∃ t : Fin cfg0.N, win0_2.index t = ![q0.val, q1.val, q2.val] :=
  (by decide +kernel : ∀ (q0 : Fin 32) (q1 : Fin 2) (q2 : Fin 2), ∃ t : Fin grid0.N, win0_2.index t = ![q0.val, q1.val, q2.val])

/-- What point `t` writes back is tile `t` of the squared-distance function of the folded arrays. -/
theorem flushed_eq (c : Dev nD) (t : Fin cfg0.N) :
    (dats m 0 c).flushed 2 t = ((cfg0.win 2).blk t).view.read (Elt Ideal) (sqd3 (V m c main_v0) (V m c main_v1)) := by
  show (cfg0.win 2).cut (grid0.coords t) ((dats m 0 c).after 2 t) = _
  rw [after0_2]
  unfold out0_2
  rw [View.canon_unit_zero zeros3]
  simp only [View.ld_unit_zero (S := S1x1024x64) zeros3, View.ld_unit_zero (S := S1x64x1024) zeros3]
  rw [pay_eq]
  obtain ⟨e0, e1, e2, e3, e4, e5, b0, b1, b2⟩ := index_facts t
  funext j
  show sqdBlk (iblk m c 0 t) (iblk m c 1 t) j = sqd3 (V m c main_v0) (V m c main_v1) (((cfg0.win 2).blk t).view.emb j)
  unfold sqdBlk sqd3
  have hj0 : (j 0).val < 1 := (j 0).isLt
  refine congrArg₂ sqd (funext fun k => ?_) (funext fun k => ?_)
  · show V m c main_v0 (((cfg0.win 0).blk t).view.emb (ix3 (0 : Fin 1) (j 1 : Fin 1024) k)) = V m c main_v0 _
    refine congrArg (V m c main_v0) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 1024 + 1 * (j 1).val = win0_2.index t (1 : Fin 3) * 1024 + 1 * (j 1).val; omega
    | ⟨2, _⟩ => show win0_0.index t (2 : Fin 3) * 64 + 1 * k.val = k.val; omega
  · show V m c main_v1 (((cfg0.win 1).blk t).view.emb (ix3 (0 : Fin 1) k (j 2 : Fin 1024))) = V m c main_v1 _
    refine congrArg (V m c main_v1) (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 64 + 1 * k.val = k.val; omega
    | ⟨2, _⟩ => show win0_1.index t (2 : Fin 3) * 1024 + 1 * (j 2).val = win0_2.index t (2 : Fin 3) * 1024 + 1 * (j 2).val; omega

/-- An index of the result array lies in point `t`'s tile iff each coordinate lies in the tile's range. -/
theorem mem_tile (t : Fin cfg0.N) (i : S32x2048x2048.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v2).slice (win0_2.rect t)).set ↔ _
  rw [View.set_slice_whole, Rect.mem_set_unit]
  exact Iff.rfl

/-- The tiles cover the result array: entry (g, r, j) lies in the tile of slab g, row block r / 1024,
    column block j / 1024. -/
theorem tiles_cover (i : S32x2048x2048.Idx) :
    ∃ t : Fin cfg0.N, (cfg0.win 2).flush t = true ∧ i ∈ ((cfg0.win 2).blk t).view.set := by
  have hi0 : (i 0).val < 32 := (i 0).isLt
  have hi1 : (i 1).val < 2048 := (i 1).isLt
  have hi2 : (i 2).val < 2048 := (i 2).isLt
  obtain ⟨t, ht⟩ := index_onto ⟨(i 0).val, hi0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- After the region the folded result array is the squared-distance function of the folded arguments. -/
theorem folded_result (c : Dev nD) : (dats m 0 c).arrAt 2 cfg0.N = sqd3 (V m c main_v0) (V m c main_v1) :=
  (dats m 0 c).arrAt_eq_of_cover 2 _ (fun t _ => flushed_eq m c t) tiles_cover

end Cert.KernelIdeal.Whole

end
-- ==== Proof.KernelRun.lean ====
/-
  The kernel program's run, read as a value. Before the region the program folds batch and head of each
  argument into one slab axis (slab 8·b + h is batch b, head h); the region leaves the folded result at the
  squared-distance function of the folded arguments; after it the program unfolds the slab axis again. A
  row-major re-laying moves no entry's position in memory, so entry (b, h, r, j) of the final result is entry
  (8·b + h, r, j) of the folded one, whose row and column are those of batch b and head h of the arguments:
  the final result is the rank-4 specification of the arguments as launched.
-/
import proofs.«133439_j88923002896506_1_alg».proof.Proof.Blocks

set_option maxRecDepth 16384

noncomputable section

open scoped BigOperators

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Tile Cert.SqDist

/-! ## The three re-layings, read at an index -/

/-- Folding the query: slab g = 8·b + h, row r, column c is batch b, head h, row r, column c. -/
theorem fold_q_apply (x : S4x8x2048x64.Idx → EReal) (b : Fin 4) (h : Fin 8) (r : Fin 2048) (c : Fin 64) (g : Fin 32)
    (hg : g.val = b.val * 8 + h.val) :
    shapeCast S32x2048x64 x shapeCasts_S4x8x2048x64_S32x2048x64 (ix3 g r c) = x (ix4 b h r c) :=
  shapeCast_apply x _ (ix3 g r c) (ix4 b h r c) (by
    rw [Shape.rowMajor_val_four, Shape.rowMajor_val_three]
    show ((b.val * 8 + h.val) * 2048 + r.val) * 64 + c.val = (g.val * 2048 + r.val) * 64 + c.val
    rw [hg])

/-- Folding the key: slab g = 8·b + h, row c, column j is batch b, head h, row c, column j. -/
theorem fold_k_apply (x : S4x8x64x2048.Idx → EReal) (b : Fin 4) (h : Fin 8) (c : Fin 64) (j : Fin 2048) (g : Fin 32)
    (hg : g.val = b.val * 8 + h.val) :
    shapeCast S32x64x2048 x shapeCasts_S4x8x64x2048_S32x64x2048 (ix3 g c j) = x (ix4 b h c j) :=
  shapeCast_apply x _ (ix3 g c j) (ix4 b h c j) (by
    rw [Shape.rowMajor_val_four, Shape.rowMajor_val_three]
    show ((b.val * 8 + h.val) * 64 + c.val) * 2048 + j.val = (g.val * 64 + c.val) * 2048 + j.val
    rw [hg])

/-- Unfolding the result: batch b, head h, row r, column j is slab g = 8·b + h, row r, column j. -/
theorem unfold_apply (y : S32x2048x2048.Idx → EReal) (b : Fin 4) (h : Fin 8) (r j : Fin 2048) (g : Fin 32)
    (hg : g.val = b.val * 8 + h.val) :
    shapeCast S4x8x2048x2048 y shapeCasts_S32x2048x2048_S4x8x2048x2048 (ix4 b h r j) = y (ix3 g r j) :=
  shapeCast_apply y _ (ix4 b h r j) (ix3 g r j) (by
    rw [Shape.rowMajor_val_three, Shape.rowMajor_val_four]
    show (g.val * 2048 + r.val) * 2048 + j.val = ((b.val * 8 + h.val) * 2048 + r.val) * 2048 + j.val
    rw [hg])

/-- Unfolding the folded specification of the folded arguments gives the rank-4 specification. -/
theorem unfold_sqd3 (q : S4x8x2048x64.Idx → EReal) (k : S4x8x64x2048.Idx → EReal) :
    shapeCast S4x8x2048x2048
        (sqd3 (shapeCast S32x2048x64 q shapeCasts_S4x8x2048x64_S32x2048x64) (shapeCast S32x64x2048 k shapeCasts_S4x8x64x2048_S32x64x2048))
        shapeCasts_S32x2048x2048_S4x8x2048x2048
      = sqd4 q k := by
  funext i
  obtain ⟨b, h, r, j, rfl⟩ : ∃ (b : Fin 4) (h : Fin 8) (r j : Fin 2048), i = ix4 b h r j := ⟨i 0, i 1, i 2, i 3, eq_ix4 i⟩
  have hlt : b.val * 8 + h.val < 32 := by omega
  rw [unfold_apply _ b h r j ⟨b.val * 8 + h.val, hlt⟩ rfl]
  unfold sqd3 sqd4
  refine congrArg₂ sqd (funext fun c => ?_) (funext fun c => ?_)
  · exact fold_q_apply q b h r c ⟨b.val * 8 + h.val, hlt⟩ rfl
  · exact fold_k_apply k b h c j ⟨b.val * 8 + h.val, hlt⟩ rfl

/-! ## Around the region -/

variable (m : (ℓ : Loc nD τ sig) → Buf (Elt Ideal) ℓ) (ρ : Dev nD → PrngReg)

/-- The region finds the folded query: the first argument re-laid. -/
theorem folded_q (c : Dev nD) :
    (V m c main_v0 : S32x2048x64.Idx → EReal) = shapeCast S32x2048x64 (m ((c : Thread nD τ).loc main_arg0)) shapeCasts_S4x8x2048x64_S32x2048x64 := by
  show StableHlo.after hostOps0 (fun b => m (c, b)) (Proc.devRef .tc main_v0) = _
  after_results
  rfl

/-- The region finds the folded key: the second argument re-laid. -/
theorem folded_k (c : Dev nD) :
    (V m c main_v1 : S32x64x2048.Idx → EReal) = shapeCast S32x64x2048 (m ((c : Thread nD τ).loc main_arg1)) shapeCasts_S4x8x64x2048_S32x64x2048 := by
  show StableHlo.after hostOps0 (fun b => m (c, b)) (Proc.devRef .tc main_v1) = _
  after_results
  rfl

/-- After the region the program's result is the folded result array re-laid. -/
theorem tail_result (c : Dev nD) :
    Pipeline.afterTail₀ cfgs (dats m) 0 (V0 m) [hostOps1] c main_v3
      = shapeCast S4x8x2048x2048 ((dats m 0 c).arrAt 2 cfg0.N) shapeCasts_S32x2048x2048_S4x8x2048x2048 := by
  unfold Pipeline.afterTail₀
  show StableHlo.after hostOps1 _ (Proc.devRef .tc main_v3) = _
  after_results
  exact congrArg (fun y => shapeCast S4x8x2048x2048 y shapeCasts_S32x2048x2048_S4x8x2048x2048)
    (Pipeline.withArrays_arr spec0 launch0.win.arr_inj c _ _ 2)

/-- So the program's result is the rank-4 specification of the arguments as launched. -/
theorem result_eq (c : Dev nD) :
    Pipeline.afterTail₀ cfgs (dats m) 0 (V0 m) [hostOps1] c main_v3
      = sqd4 (m ((c : Thread nD τ).loc main_arg0)) (m ((c : Thread nD τ).loc main_arg1)) := by
  rw [tail_result, folded_result, folded_q, folded_k]
  exact unfold_sqd3 _ _

/-- Every weakly fair execution of the kernel program terminates with its result at the specification of
    the arguments and the arguments unchanged. -/
theorem run : θ_run defs (onTc (τ := τ) (main (F := Ideal))) ⟨m, fun _ => 0, ρ⟩ fun r => ∀ c : Dev nD,
      r.2.mem ((c.tc : Thread nD τ).loc main_v3) = sqd4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Whole

end
-- ==== Proof.RefSpec.lean ====
/-
  The reference computes the specification. Read one operation at a time, entry (b, h, r, j) of its result
  is (0 + Σ_c q(b,h,r,c)²) + (0 + Σ_c k(b,h,c,j)²) − 2 · Σ_c q(b,h,r,c) · k(b,h,c,j): the two zeros are the
  sums' initial values and vanish, the broadcasts only repeat an entry along the new axis, and what is left is
  the squared distance of row r and column j of batch b and head h.
-/
import proofs.«133439_j88923002896506_1_alg».proof.Proof.Gen.ReferenceIdeal.Read
import proofs.«133439_j88923002896506_1_alg».proof.Proof.Spec

noncomputable section

open scoped BigOperators

namespace Cert.ReferenceIdeal.RefSpec

open Idealize.ShloMosaic Idealize.ShloMosaic.ValueIdx Cert.ReferenceIdeal Cert.ReferenceIdeal.Read Cert.SqDist

/-- The reference's result, as a function of its two arguments, is the rank-4 specification. -/
theorem result_eq (q : (⟨S4x8x2048x64, .f32⟩ : BufTy).Contents (Elt Ideal)) (k : (⟨S4x8x64x2048, .f32⟩ : BufTy).Contents (Elt Ideal)) :
    val_main_v12 (F := Ideal) q k = sqd4 q k := by
  funext i
  have h1 : ∀ c : Fin 64, idx_main_v1 (idx_main_v2 (idx_main_v7 i)) c = ix4 (i 0 : Fin 4) (i 1 : Fin 8) (i 2 : Fin 2048) c := fun c =>
    funext fun a => Fin.ext (by match a with | ⟨0, _⟩ => rfl | ⟨1, _⟩ => rfl | ⟨2, _⟩ => rfl | ⟨3, _⟩ => rfl)
  have h4 : ∀ c : Fin 64, idx_main_v4 (idx_main_v5 (idx_main_v8 i)) c = ix4 (i 0 : Fin 4) (i 1 : Fin 8) c (i 3 : Fin 2048) := fun c =>
    funext fun a => Fin.ext (by match a with | ⟨0, _⟩ => rfl | ⟨1, _⟩ => rfl | ⟨2, _⟩ => rfl | ⟨3, _⟩ => rfl)
  have hl : ∀ c : Fin 64, lidx_main_v6 i c = ix4 (i 0 : Fin 4) (i 1 : Fin 8) (i 2 : Fin 2048) c := fun c =>
    funext fun a => Fin.ext (by match a with | ⟨0, _⟩ => rfl | ⟨1, _⟩ => rfl | ⟨2, _⟩ => rfl | ⟨3, _⟩ => rfl)
  have hr : ∀ c : Fin 64, ridx_main_v6 i c = ix4 (i 0 : Fin 4) (i 1 : Fin 8) c (i 3 : Fin 2048) := fun c =>
    funext fun a => Fin.ext (by match a with | ⟨0, _⟩ => rfl | ⟨1, _⟩ => rfl | ⟨2, _⟩ => rfl | ⟨3, _⟩ => rfl)
  rw [val_main_v12_apply, val_main_v9_apply, val_main_v11_apply, val_main_v7_apply, val_main_v8_apply,
    val_main_v2_apply, val_main_v5_apply, val_main_v1_apply, val_main_v4_apply, val_main_v6_apply, val_main_v10_apply]
  simp only [val_main_v0_apply, val_main_v3_apply, val_main_cst_apply, val_main_cst_0_apply, val_main_cst_1_apply,
    Ideal.subf_def, Ideal.addf_def, Ideal.mulf_def, Ideal.ofBits_def, Ideal.ofBits_zero_f32, zero_add, h1, h4, hl, hr]
  rfl

end Cert.ReferenceIdeal.RefSpec

end
-- ==== Proof.lean ====
/-
  Pairwise squared-distance scores, out[b,h,r,j] = ‖q[b,h,r,:]‖² + ‖k[b,h,:,j]‖² − 2 ⟨q[b,h,r,:], k[b,h,:,j]⟩,
  for a query of shape [4, 8, 2048, 64] and a key of shape [4, 8, 64, 2048].

  The kernel folds batch and head into one axis of 32 slabs and computes the result in 1024 × 1024 tiles on a
  32 × 2 × 2 grid: per tile, the row sums of the squared query block, the column sums of the squared key block,
  and one matrix product of the two blocks with its operands narrowed to a 16-bit format. The reference does
  the same three things on the whole rank-4 arrays with one sum per row, one per column and one batched
  contraction. Over the extended reals a change of float format is the identity, a lane sum and a host sum are
  the same finite sum (the host's starts from a zero that vanishes), and a product into a zero accumulator is
  the contraction's sum; the two programs group the three terms alike and carry the same word for the factor 2.
  So both results are, entry by entry, ONE function of the arguments (`Cert.SqDist.sqd4`, Proof/Spec.lean), and no
  law beyond re-indexing the sums is used: the finiteness of the inputs is never needed.

  The modules: Spec (the function), Payload (the kernel's tile at an index), Blocks (the tiles cover the
  folded result array), KernelRun (the re-layings around the region and the kernel program's run), RefSpec
  (the reference's stages compose to the function). The kernel programs' frames are the generated ones; the
  reference's frame is its generated run with the result dropped; the idealization rewrote nothing, so
  `preserves` is trivial.
-/
import proofs.«133439_j88923002896506_1_alg».proof.Defs
import proofs.«133439_j88923002896506_1_alg».proof.Proof.Gen.Kernel
import proofs.«133439_j88923002896506_1_alg».proof.Proof.Gen.Kernel.Skeleton
import proofs.«133439_j88923002896506_1_alg».proof.Proof.Gen.Kernel.Launch
import proofs.«133439_j88923002896506_1_alg».proof.Proof.Gen.Kernel.Points
import proofs.«133439_j88923002896506_1_alg».proof.Proof.Gen.Kernel.Frame
import proofs.«133439_j88923002896506_1_alg».proof.Proof.Gen.KernelIdeal
import proofs.«133439_j88923002896506_1_alg».proof.Proof.Gen.KernelIdeal.Skeleton
import proofs.«133439_j88923002896506_1_alg».proof.Proof.Gen.KernelIdeal.Launch
import proofs.«133439_j88923002896506_1_alg».proof.Proof.Gen.KernelIdeal.Points
import proofs.«133439_j88923002896506_1_alg».proof.Proof.Gen.KernelIdeal.Frame
import proofs.«133439_j88923002896506_1_alg».proof.Proof.Gen.ReferenceIdeal
import proofs.«133439_j88923002896506_1_alg».proof.Proof.Gen.ReferenceIdeal.Run
import proofs.«133439_j88923002896506_1_alg».proof.Proof.Gen.ReferenceIdeal.Read
import proofs.«133439_j88923002896506_1_alg».proof.Proof.Gen.Pre_finite_inputs
import proofs.«133439_j88923002896506_1_alg».proof.Proof.KernelRun
import proofs.«133439_j88923002896506_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a straight line of host operations: its run terminates with the arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the squared-distance function of the
    arguments in their result: the kernel by its run read as a value, the reference by its stages composed. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v12_eq _ _).trans (Cert.ReferenceIdeal.RefSpec.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
